-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x8 : Shape := ⟨2, ![8388608, 8]⟩
abbrev S1 : Shape := ⟨1, ![1]⟩
abbrev S_ : Shape := ⟨0, ![]⟩

class Facts : Prop where
  bcast_S_S8388608x8 : S_.BroadcastsInDim S8388608x8 (![] : Fin 0 → Fin S8388608x8.rank)
  reducesTo_S8388608x8_S_d0_1 : S8388608x8.ReducesTo [0, 1] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S8388608x8 .f32) (main_arg1 : FVec F S8388608x8 .f32) (main_arg2 : FVec F S1 .f32) : IVec S_ 1 :=
  let main_v0 : FVec F S8388608x8 .f32 := Host.absf main_arg0
  let main_cst : FVec F S_ .f32 := constant S_ .f32 0x7F800000#32
  let main_v1 : FVec F S8388608x8 .f32 := broadcastInDim S8388608x8 ![] bcast_S_S8388608x8 main_cst
  let main_v2 : IVec S8388608x8 1 := cmpf .olt main_v0 main_v1
  let main_c : IVec S_ 1 := constantI S_ 1 1#1
  let main_v3 : IVec S_ 1 := (fun x v => Host.reduce IntOp.andi x v reducesTo_S8388608x8_S_d0_1 h_S_) main_v2 main_c
  let main_v4 : FVec F S8388608x8 .f32 := Host.absf main_arg1
  let main_cst_0 : FVec F S_ .f32 := constant S_ .f32 0x7F800000#32
  let main_v5 : FVec F S8388608x8 .f32 := broadcastInDim S8388608x8 ![] bcast_S_S8388608x8 main_cst_0
  let main_v6 : IVec S8388608x8 1 := cmpf .olt main_v4 main_v5
  let main_c_1 : IVec S_ 1 := constantI S_ 1 1#1
  let main_v7 : IVec S_ 1 := (fun x v => Host.reduce IntOp.andi x v reducesTo_S8388608x8_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S8388608x8 : Shape := ⟨2, ![8388608, 8]⟩
abbrev S1 : Shape := ⟨1, ![1]⟩
abbrev S524288x128 : Shape := ⟨2, ![524288, 128]⟩
abbrev S1x1 : Shape := ⟨2, ![1, 1]⟩
abbrev S8192x128 : Shape := ⟨2, ![8192, 128]⟩
abbrev S8192 : Shape := ⟨1, ![8192]⟩
abbrev S8192x1 : Shape := ⟨2, ![8192, 1]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S8388608x8, .f32⟩
  | .hbm, ⟨1, _⟩ => ⟨S8388608x8, .f32⟩
  | .hbm, ⟨2, _⟩ => ⟨S1, .f32⟩
  | .hbm, ⟨3, _⟩ => ⟨S524288x128, .f32⟩
  | .hbm, ⟨4, _⟩ => ⟨S524288x128, .f32⟩
  | .hbm, ⟨5, _⟩ => ⟨S1x1, .f32⟩
  | .hbm, ⟨6, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S1x1, .f32⟩
  | .local _ .vmem, ⟨5, _⟩ => ⟨S1x1, .f32⟩
  | _, _ => ⟨S8388608x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v18 : BitVec 1 := Scalar.cmpi .eq arg0 c63_i32
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S8388608x8_S524288x128 : S8388608x8.ShapeCasts S524288x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S8192 : S8192x128.Reduces [1] S8192
  shapeCasts_S8192_S8192x1 : S8192.ShapeCasts S8192x1
  reduces_S8192x1_S1 : S8192x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S524288x128.size a
  hwx0_1 : ∀ i : grid0.Coords, EltTy.bits .f32 = 32 ∨ (Rect.block (s := S524288x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8388608x8 : Shape := ⟨2, ![8388608, 8]⟩
abbrev S1 : Shape := ⟨1, ![1]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8388608x8, .f32⟩
  | .hbm, ⟨1, _⟩ => ⟨S8388608x8, .f32⟩
  | .hbm, ⟨2, _⟩ => ⟨S1, .f32⟩
  | .hbm, ⟨3, _⟩ => ⟨S8388608x8, .f32⟩
  | .hbm, ⟨4, _⟩ => ⟨S8388608x8, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | _, _ => ⟨S8388608x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩

abbrev nD : Nat := 1
abbrev τ : Topo := Topo.v7x

variable {F : FTy → Type} [FloatOps F]

class Facts₀ : Prop where
  reducesTo_S8388608x8_S_d0_1 : S8388608x8.ReducesTo [0, 1] S_
  h_S_ : 0 < S_.numel

variable [Facts₀]

class Facts : Prop extends Facts₀ where

variable [Facts]
-- ==== Proof.KernelPieces.lean ====
/-
  What each case of the kernel body leaves behind, as values. The body keeps a one-entry accumulator in scratch
  memory across the grid: at the first point it stores zero and then adds the block's total, at every later
  point it adds the block's total to what the point before left, and at the last point it also stores the
  accumulator times a constant into the output block. Each case's stores are single covering stores, so what the
  scratch (and, at the last point, the output block) holds afterwards is the stored payload itself.
-/
import proofs.«147512_j42545946034228_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A middle point: the accumulator ends at the update of what it held. -/
theorem scratch_B (c : Dev nD) (i : grid0.Coords) (a1 : Memref sig .tc .vmem S8192x128 .f32) (h1 : a1.IsWhole)
    (a2 : Memref sig .tc .vmem S8192x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S8192x128 .f32) (xs : Vec F S1x1 .f32) :
    sout0_B_0 c i a1 h1 a2 h2 a3 h3 a4 h4 hc0 hc1 x0 x1 xs = k0_pay2 x0 x1 xs := by
  unfold sout0_B_0
  rw [View.read_writes_eq_canon _ _ _ (scover0_B_0 c i a1 h1 a2 h2 a3 h3 a4 h4 hc0 hc1 x0 x1 xs)]
  unfold kernelRun0_B
  dsimp only
  sl_unfold_words
  rw [View.canon_unit_zero hz]
  simp only [View.readAt_eq_ld, h1.read_unread, h2.read_unread, h4.read_unread, View.ld_unit_zero (S := S8192x128) hz,
    View.ld_unit_zero (S := S1x1) hz]

/-- The first point: the accumulator is reset, then updated. -/
theorem scratch_A (c : Dev nD) (i : grid0.Coords) (a1 : Memref sig .tc .vmem S8192x128 .f32) (h1 : a1.IsWhole)
    (a2 : Memref sig .tc .vmem S8192x128 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S8192x128 .f32) :
    sout0_A_0 c i a1 h1 a2 h2 a3 h3 a4 h4 hc0 hc1 x0 x1 = k0_pay2 x0 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S8192x128) hz]

/-- The last point: the accumulator is updated as at a middle point, -/
theorem scratch_C (c : Dev nD) (i : grid0.Coords) (a1 : Memref sig .tc .vmem S8192x128 .f32) (h1 : a1.IsWhole)
    (a2 : Memref sig .tc .vmem S8192x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S8192x128 .f32) (xs : Vec F S1x1 .f32) :
    sout0_C_0 c i a1 h1 a2 h2 a3 h3 a4 h4 hc0 hc1 x0 x1 xs = k0_pay2 x0 x1 xs := by
  unfold sout0_C_0
  rw [View.read_writes_eq_canon _ _ _ (scover0_C_0 c i a1 h1 a2 h2 a3 h3 a4 h4 hc0 hc1 x0 x1 xs)]
  unfold kernelRun0_C
  dsimp only
  sl_unfold_words
  rw [View.canon_unit_zero hz]
  simp only [View.readAt_eq_ld, h1.read_unread, h2.read_unread, h4.read_unread, View.ld_unit_zero (S := S8192x128) hz,
    View.ld_unit_zero (S := S1x1) hz]

/-- and the output block receives the scaled accumulator. -/
theorem out_C (c : Dev nD) (i : grid0.Coords) (a1 : Memref sig .tc .vmem S8192x128 .f32) (h1 : a1.IsWhole)
    (a2 : Memref sig .tc .vmem S8192x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S8192x128 .f32) (xs : Vec F S1x1 .f32) :
    out0_C_2 c i a1 h1 a2 h2 a3 h3 a4 h4 hc0 hc1 x0 x1 xs = k0_pay3 (k0_pay2 x0 x1 xs) := by
  unfold out0_C_2
  rw [View.read_writes_eq_canon _ _ _ (cover0_C_2 c i a1 h1 a2 h2 a3 h3 a4 h4 hc0 hc1 x0 x1 xs)]
  unfold kernelRun0_C
  dsimp only
  sl_unfold_words
  rw [View.canon_unit_zero hz]
  simp only [View.readAt_eq_ld, h1.read_unread, h2.read_unread, h4.read_unread, View.ld_unit_zero (S := S8192x128) hz,
    View.ld_unit_zero (S := S1x1) hz, View.readCov_unit_zero (S := S1x1) _ hz]

end Cert.KernelIdeal.Pieces

end
-- ==== Proof.LibTotalSum.lean ====
/-
  Sums over whole index sets, for kernels that reduce an array to one number block by block.

  * a sum of a one-step reduction's results over every kept index is the sum of the source over every index
    (each source index drops to exactly one kept index);
  * a sum over a reshaped array is the sum over the array (a reshape is a bijection of index sets);
  * a sum over the rows `0 … G·R - 1` of a two-axis array is the sum, over the `G` consecutive row blocks of
    `R` rows, of the block's sum;
  * a running sum `(((0 + g 0) + g 1) + …) + g n` on the extended reals is `∑ s ≤ n, g s`;
  * division by a nonzero power of two is the product with its reciprocal, read on the two f32 patterns of
    `2^23` and `2^-23`.
-/
import Idealize.ShloMosaic.PureOps.Ideal.Laws
import Idealize.ShloMosaic.Lib.ValueIdx

noncomputable section

namespace Idealize.ShloMosaic.TotalSum

open Idealize.ShloMosaic Idealize.ShloMosaic.ValueIdx

/-! ## Reductions and reshapes under a total sum -/

/-- Every source index drops to exactly one kept index, so summing an add-reduction's results over all kept
    indices sums the source over all its indices: no axis structure is needed. -/
theorem sum_multiReduction_add {φ : FTy} {s t : Shape} {axes : List (Fin s.rank)} (src : FVec Ideal s φ)
    (acc : BitVec φ.bits) (h : s.Reduces axes t) (hφ : FKind.Formats φ) (hacc : acc = FKind.add.neutral φ hφ) :
    ∑ j : t.Idx, multiReduction .add axes t src acc h hφ hacc j = ∑ i : s.Idx, src i := by
  show ∑ j : t.Idx, Ideal.reduceAdd h src j = _
  unfold Ideal.reduceAdd
  exact Finset.sum_fiberwise Finset.univ h.drop src

/-- The same for an f32 reduction from the zero pattern, its side condition spelt as a printed program spells it
    (an equation between the two zero patterns), so that it rewrites a printed payload as it stands. -/
theorem sum_multiReduction_add_f32 {s t : Shape} {axes : List (Fin s.rank)} (src : FVec Ideal s .f32)
    (h : s.Reduces axes t) (hφ : FKind.Formats .f32) (hacc : (0x00000000#32 : BitVec 32) = 0x00000000#32) :
    ∑ j : t.Idx, multiReduction .add axes t src 0x00000000#32 h hφ hacc j = ∑ i : s.Idx, src i :=
  sum_multiReduction_add src 0x00000000#32 h hφ hacc

/-- A reshape lists the same entries in the same row-major order: its total is the array's. -/
theorem sum_shapeCast {M : Type} [AddCommMonoid M] {s t : Shape} (x : s.Idx → M) (h : s.ShapeCasts t) :
    ∑ j : t.Idx, shapeCast t x h j = ∑ i : s.Idx, x i :=
  Equiv.sum_comp (Shape.reshapeEquiv h) x

/-- A shape with one index: a sum over it is the one term. -/
theorem sum_unique_idx {M : Type*} [AddCommMonoid M] {t : Shape} (ht : ∀ b, t.size b = 1) (x : t.Idx → M) (j : t.Idx) :
    ∑ i : t.Idx, x i = x j := by
  have hall : ∀ i : t.Idx, i = j := fun i => funext fun b => Fin.ext (by
    have := (i b).isLt; have := (j b).isLt; have := ht b; omega)
  rw [Finset.sum_eq_single j (fun i _ hi => absurd (hall i) hi) (fun hj => absurd (Finset.mem_univ j) hj)]

/-- Reshaped to a shape with one index, an array's one entry there is its total. -/
theorem shapeCast_one_eq_sum {M : Type} [AddCommMonoid M] {s t : Shape} (ht : ∀ b, t.size b = 1) (x : s.Idx → M)
    (h : s.ShapeCasts t) (j : t.Idx) : shapeCast t x h j = ∑ i : s.Idx, x i :=
  (sum_unique_idx ht _ j).symm.trans (sum_shapeCast x h)

/-! ## Row blocks -/

/-- `Fin (G * R)` is `G` consecutive runs of `R`: position `a * R + b`. -/
theorem sum_fin_runs {M : Type*} [AddCommMonoid M] (G R N : ℕ) (hN : G * R = N) (k : Fin N → M) :
    ∑ p : Fin N, k p
      = ∑ a : Fin G, ∑ b : Fin R, k ⟨a.val * R + b.val, by
          have := a.isLt; have := b.isLt
          calc a.val * R + b.val < a.val * R + R := by omega
            _ = (a.val + 1) * R := by ring
            _ ≤ G * R := Nat.mul_le_mul_right R (by omega)
            _ = N := hN⟩ := by
  subst hN
  rw [← Equiv.sum_comp finProdFinEquiv k, Fintype.sum_prod_type]
  refine Finset.sum_congr rfl fun a _ => Finset.sum_congr rfl fun b _ => congrArg k (Fin.ext ?_)
  show b.val + R * a.val = a.val * R + b.val
  rw [Nat.mul_comm, Nat.add_comm]

/-- Row `r` of row block `t` (blocks of `R` rows) of an array with `N = G·R` rows. -/
abbrev blockRow {G R N : ℕ} (hN : G * R = N) (t : Fin G) (r : Fin R) : Fin N :=
  ⟨t.val * R + r.val, by
    have := t.isLt; have := r.isLt
    calc t.val * R + r.val < t.val * R + R := by omega
      _ = (t.val + 1) * R := by ring
      _ ≤ G * R := Nat.mul_le_mul_right R (by omega)
      _ = N := hN⟩

/-- The total of a two-axis array is the sum over its row blocks of each block's total. -/
theorem sum_rowBlocks {M : Type*} [AddCommMonoid M] {G R N C : ℕ} (hN : G * R = N)
    (f : (⟨2, ![N, C]⟩ : Shape).Idx → M) :
    ∑ j, f j = ∑ t : Fin G, ∑ y : (⟨2, ![R, C]⟩ : Shape).Idx, f (ix2 (blockRow hN t (y 0)) (y 1)) := by
  rw [sum_idx2, sum_fin_runs G R N hN]
  refine Finset.sum_congr rfl fun t _ => ?_
  rw [sum_idx2]
  rfl

/-! ## A running sum -/

/-- The accumulator after step `n`: reset to `z` before step `0`, then one term added per step. -/
def runSum (z : EReal) (g : ℕ → EReal) : ℕ → EReal
  | 0 => z + g 0
  | n + 1 => runSum z g n + g (n + 1)

theorem runSum_eq_sum (z : EReal) (g : ℕ → EReal) (n : ℕ) : runSum z g n = z + ∑ s ∈ Finset.range (n + 1), g s := by
  induction n with
  | zero => simp [runSum]
  | succ n ih => rw [runSum, ih, Finset.sum_range_succ _ (n + 1), add_assoc]

/-! ## The two patterns -/

/-- `0x4B000000` is `2^23 = 8388608`. -/
theorem ofBits_4B000000 : Ideal.ofBits .f32 0x4B000000#32 = ((8388608 : ℝ) : EReal) := by
  simp [Ideal.ofBits, Ideal.ieee, -EReal.coe_mul] <;> norm_num

/-- `0x34000000` is `2^-23 = 1 / 8388608`, exactly. -/
theorem ofBits_34000000 : Ideal.ofBits .f32 0x34000000#32 = ((1 / 8388608 : ℝ) : EReal) := by
  simp [Ideal.ofBits, Ideal.ieee, -EReal.coe_mul] <;> norm_num

/-- Dividing by `2^23` is multiplying by `2^-23`, on every extended real. -/
theorem div_4B000000 (x : EReal) :
    Ideal.div x (Ideal.ofBits .f32 0x4B000000#32) = x * Ideal.ofBits .f32 0x34000000#32 := by
  rw [ofBits_4B000000, ofBits_34000000]
  exact Ideal.div_coe (by norm_num) x

end Idealize.ShloMosaic.TotalSum

end
-- ==== Proof.L1RowMean.lean ====
/-
  The number both programs compute: for two arrays `a`, `b` of 8388608 rows of 8 entries, the total of the
  absolute differences `|a i - b i|` over every entry, times `2^-23` — the reciprocal of the number of rows
  (8388608 = 2^23), which f32 holds exactly. On the extended reals `|z|` is `max z (-z)`.
-/
import proofs.«147512_j42545946034228_1_alg».proof.Proof.LibTotalSum

noncomputable section

namespace Cert.L1RowMean

open Idealize.ShloMosaic

/-- The arguments' shape: 8388608 rows of 8. -/
abbrev Rows : Shape := ⟨2, ![8388608, 8]⟩

/-- The absolute difference of two extended reals. -/
abbrev absDiff (u v : EReal) : EReal := max (u - v) (-(u - v))

/-- The total absolute difference over all entries, scaled by the reciprocal of the row count. -/
def value (a b : Rows.Idx → EReal) : EReal :=
  (∑ i : Rows.Idx, absDiff (a i) (b i)) * Ideal.ofBits .f32 0x34000000#32

end Cert.L1RowMean

end
-- ==== Proof.KernelSum.lean ====
/-
  The idealized kernel's result. The two argument arrays, re-laid as 524288 rows of 128, are read 8192 rows at a
  time over 64 grid points; each point adds its block's total of absolute differences to a one-entry accumulator,
  and the last point writes the accumulator times `2^-23` to the one-entry result. So the result is the total of
  absolute differences over every entry of the re-laid arrays, which is the total over the arrays as given (a
  reshape permutes nothing), times `2^-23`.
-/
import proofs.«147512_j42545946034228_1_alg».proof.Proof.KernelPieces
import proofs.«147512_j42545946034228_1_alg».proof.Proof.L1RowMean
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)
open Idealize.ShloMosaic.ValueIdx Idealize.ShloMosaic.TotalSum

namespace Cert.KernelIdeal.AbsSum

open Cert.KernelIdeal Cert.KernelIdeal.Gen Cert.KernelIdeal.Pieces Cert.L1RowMean

/-! ## The payloads on the extended reals -/

/-- The reset stores zero. -/
theorem pay1_apply (j : S1x1.Idx) : k0_pay1 (F := Ideal) j = 0 := by
  unfold k0_pay1
  simp only [shapeCast_self]
  exact Ideal.ofBits_zero_f32

/-- The update adds the block's total of absolute differences: the lane sums of every row, summed over the rows,
    are the sum over every entry of the block. -/
theorem pay2_apply (x0 x1 : Vec Ideal S8192x128 .f32) (xs : Vec Ideal S1x1 .f32) (j : S1x1.Idx) :
    k0_pay2 (F := Ideal) x0 x1 xs j = xs j + ∑ y : S8192x128.Idx, absDiff (x0 y) (x1 y) := by
  unfold k0_pay2
  simp only [shapeCast_self]
  show xs j + shapeCast S1x1 _ _ j = _
  congr 1
  rw [shapeCast_one_eq_sum (t := S1x1) (fun b => by fin_cases b <;> rfl), sum_multiReduction_add_f32, sum_shapeCast,
    sum_multiReduction_add_f32]
  rfl

/-- The last point scales by the constant. -/
theorem pay3_apply (v : Vec Ideal S1x1 .f32) (j : S1x1.Idx) :
    k0_pay3 (F := Ideal) v j = v j * Ideal.ofBits .f32 0x34000000#32 := rfl

/-! ## The accumulator after each point -/

variable (m : (ℓ : Loc nD τ sig) → Buf (Elt Ideal) ℓ) (ρ : Dev nD → PrngReg)

/-- Block `t` of each re-laid array, as the window reads it. -/
abbrev lhsBlk (c : Dev nD) (t : Fin cfg0.N) : Vec Ideal S8192x128 .f32 := iblk m c 0 t
abbrev rhsBlk (c : Dev nD) (t : Fin cfg0.N) : Vec Ideal S8192x128 .f32 := iblk m c 1 t

/-- Block `s`'s total of absolute differences (zero past the grid's end). -/
def blockTotal (c : Dev nD) (s : ℕ) : EReal :=
  if h : s < cfg0.N then ∑ y : S8192x128.Idx, absDiff (lhsBlk m c ⟨s, h⟩ y) (rhsBlk m c ⟨s, h⟩ y) else 0

theorem blockTotal_of_lt (c : Dev nD) (s : ℕ) (h : s < cfg0.N) :
    blockTotal m c s = ∑ y : S8192x128.Idx, absDiff (lhsBlk m c ⟨s, h⟩ y) (rhsBlk m c ⟨s, h⟩ y) := dif_pos h

/-- After point `n` the accumulator holds the running sum of the block totals up to `n`, started from zero: by
    induction on the point, the first point by the reset case, every later one by an update case. -/
theorem scratch_eq (c : Dev nD) : ∀ (n : ℕ) (h : n < cfg0.N),
    (outsAt0 m c n h).2 = fun _ => runSum 0 (blockTotal m c) n
  | 0, h => by
    rw [outsAt0_A m c ⟨0, h⟩ rfl (by dsimp only; omega)]
    dsimp only
    rw [scratch_A]
    funext j
    rw [pay2_apply, pay1_apply, runSum, blockTotal_of_lt m c 0 h]
  | n + 1, h => by
    have hN : cfg0.N = 64 := N_0
    have h0 : ¬(⟨n + 1, h⟩ : Fin cfg0.N).val % 64 = 0 := by dsimp only; omega
    have ih := scratch_eq c n (Nat.lt_of_succ_lt h)
    by_cases h1 : (⟨n + 1, h⟩ : Fin cfg0.N).val % 64 = 63
    · rw [outsAt0_C m c ⟨n + 1, h⟩ h0 h1]
      dsimp only
      rw [scratch_C]
      funext j
      rw [pay2_apply, runSum, blockTotal_of_lt m c (n + 1) h]
      show (outsAt0 m c n _).2 j + _ = _
      rw [ih]
    · rw [outsAt0_B m c ⟨n + 1, h⟩ h0 h1]
      dsimp only
      rw [scratch_B]
      funext j
      rw [pay2_apply, runSum, blockTotal_of_lt m c (n + 1) h]
      show (outsAt0 m c n _).2 j + _ = _
      rw [ih]

/-- At the last point the output block receives the running sum, scaled. -/
theorem out_eq (c : Dev nD) (n : ℕ) (h : n + 1 < cfg0.N) (h1 : (n + 1) % 64 = 63) :
    (outsAt0 m c (n + 1) h).1 = fun _ => runSum 0 (blockTotal m c) (n + 1) * Ideal.ofBits .f32 0x34000000#32 := by
  have hN : cfg0.N = 64 := N_0
  have h0 : ¬(⟨n + 1, h⟩ : Fin cfg0.N).val % 64 = 0 := by dsimp only; omega
  rw [outsAt0_C m c ⟨n + 1, h⟩ h0 h1]
  dsimp only
  rw [out_C]
  funext j
  rw [pay3_apply, pay2_apply, runSum, blockTotal_of_lt m c (n + 1) h]
  show ((outsAt0 m c n _).2 j + _) * _ = _
  rw [scratch_eq m c n]

end Cert.KernelIdeal.AbsSum

end
-- ==== Proof.KernelBlocks.lean ====
/-
  The input blocks, read off the arguments. The host re-lays each argument as 524288 rows of 128 lanes before the
  kernel; block `t` of a re-laid array is its rows `8192·t … 8192·t + 8191`, all 128 lanes.
-/
import proofs.«147512_j42545946034228_1_alg».proof.Proof.KernelSum

noncomputable section

open Idealize.ShloMosaic Idealize.ShloMosaic.TcCoe Idealize.SL.Sem
open Idealize.ShloMosaic.Pipeline (Dat)
open Idealize.ShloMosaic.ValueIdx Idealize.ShloMosaic.TotalSum

namespace Cert.KernelIdeal.AbsSum

open Cert.KernelIdeal Cert.KernelIdeal.Gen Cert.KernelIdeal.Pieces Cert.L1RowMean

variable (m : (ℓ : Loc nD τ sig) → Buf (Elt Ideal) ℓ) (ρ : Dev nD → PrngReg)

/-! ## The blocks, read off the arguments -/

/-- Both input windows step one block of rows per grid point and never move along the lanes. -/
theorem idx_lhs : ∀ t : Fin cfg0.N, win0_0.index t 0 = t.val ∧ win0_0.index t 1 = 0 :=
  (by decide +kernel : ∀ t : Fin grid0.N, win0_0.index t 0 = t.val ∧ win0_0.index t 1 = 0)
theorem idx_rhs : ∀ t : Fin cfg0.N, win0_1.index t 0 = t.val ∧ win0_1.index t 1 = 0 :=
  (by decide +kernel : ∀ t : Fin grid0.N, win0_1.index t 0 = t.val ∧ win0_1.index t 1 = 0)

/-- The host's opening reshapes: the region finds each argument re-laid as 524288 rows of 128. -/
theorem V_lhs (c : Dev nD) : (V m c main_v0 : S524288x128.Idx → EReal)
    = shapeCast S524288x128 (m ((c : Thread nD τ).loc main_arg0)) Facts₀.shapeCasts_S8388608x8_S524288x128 := by
  show StableHlo.after hostOps0 (fun b => m (c, b)) (Proc.devRef .tc main_v0) = _
  after_results
  rfl
theorem V_rhs (c : Dev nD) : (V m c main_v1 : S524288x128.Idx → EReal)
    = shapeCast S524288x128 (m ((c : Thread nD τ).loc main_arg1)) Facts₀.shapeCasts_S8388608x8_S524288x128 := by
  show StableHlo.after hostOps0 (fun b => m (c, b)) (Proc.devRef .tc main_v1) = _
  after_results
  rfl

/-- The grid's 64 points. -/
theorem sixtyFour : (64 : ℕ) * 8192 = 524288 := by norm_num

/-- A grid point as one of 64. -/
abbrev pt (t : Fin cfg0.N) : Fin 64 := ⟨t.val, lt_of_lt_of_eq t.isLt N_0⟩

/-- Entry `y` of block `t` of the first re-laid array is its entry at row `8192·t + y₀`, lane `y₁`. -/
theorem lhsBlk_apply (c : Dev nD) (t : Fin cfg0.N) (y : S8192x128.Idx) :
    lhsBlk m c t y = V m c main_v0 (ix2 (blockRow sixtyFour (pt t) (y 0)) (y 1)) := by
  unfold lhsBlk iblk
  rw [View.read_apply]
  show V m c main_v0 _ = V m c main_v0 _
  congr 1
  funext a
  apply Fin.ext
  match a with
  | ⟨0, _⟩ => show win0_0.index t 0 * 8192 + 1 * (y 0).val = t.val * 8192 + (y 0).val
              rw [(idx_lhs t).1]; omega
  | ⟨1, _⟩ => show win0_0.index t 1 * 128 + 1 * (y 1).val = (y 1).val
              rw [(idx_lhs t).2]; omega
theorem rhsBlk_apply (c : Dev nD) (t : Fin cfg0.N) (y : S8192x128.Idx) :
    rhsBlk m c t y = V m c main_v1 (ix2 (blockRow sixtyFour (pt t) (y 0)) (y 1)) := by
  unfold rhsBlk iblk
  rw [View.read_apply]
  show V m c main_v1 _ = V m c main_v1 _
  congr 1
  funext a
  apply Fin.ext
  match a with
  | ⟨0, _⟩ => show win0_1.index t 0 * 8192 + 1 * (y 0).val = t.val * 8192 + (y 0).val
              rw [(idx_rhs t).1]; omega
  | ⟨1, _⟩ => show win0_1.index t 1 * 128 + 1 * (y 1).val = (y 1).val
              rw [(idx_rhs t).2]; omega

end Cert.KernelIdeal.AbsSum

end
-- ==== Proof.KernelTotal.lean ====
/-
  The 64 block totals add up to the total over the re-laid arrays (the blocks tile the rows), and a reshape keeps
  the total.
-/
import proofs.«147512_j42545946034228_1_alg».proof.Proof.KernelBlocks

noncomputable section

open Idealize.ShloMosaic Idealize.ShloMosaic.TcCoe Idealize.SL.Sem
open Idealize.ShloMosaic.Pipeline (Dat)
open Idealize.ShloMosaic.ValueIdx Idealize.ShloMosaic.TotalSum

namespace Cert.KernelIdeal.AbsSum

open Cert.KernelIdeal Cert.KernelIdeal.Gen Cert.KernelIdeal.Pieces Cert.L1RowMean

variable (m : (ℓ : Loc nD τ sig) → Buf (Elt Ideal) ℓ) (ρ : Dev nD → PrngReg)

/-! ## The 64 block totals are the total -/

/-- The absolute differences of the re-laid arrays, entry by entry. -/
abbrev relaidDiff (c : Dev nD) : S524288x128.Idx → EReal := fun j => absDiff (V m c main_v0 j) (V m c main_v1 j)

/-- They are the arguments' absolute differences, read through the reshape's bijection of index sets. -/
theorem relaidDiff_eq (c : Dev nD) : relaidDiff m c = fun j =>
    (fun i : S8388608x8.Idx => absDiff (m ((c : Thread nD τ).loc main_arg0) i) (m ((c : Thread nD τ).loc main_arg1) i))
      (Shape.reshapeEquiv Facts₀.shapeCasts_S8388608x8_S524288x128 j) := by
  unfold relaidDiff
  rw [V_lhs, V_rhs]
  rfl

/-- A block's total, over the re-laid arrays. -/
theorem blockTotal_eq (c : Dev nD) (t : Fin 64) :
    blockTotal m c t.val = ∑ y : S8192x128.Idx, relaidDiff m c (ix2 (blockRow sixtyFour t (y 0)) (y 1)) := by
  have hN : cfg0.N = 64 := N_0
  rw [blockTotal_of_lt m c t.val (by omega)]
  refine Finset.sum_congr rfl fun y _ => ?_
  rw [lhsBlk_apply, rhsBlk_apply]

/-- The running sum after the last point is the total of absolute differences over the arguments as given. -/
theorem total_eq (c : Dev nD) :
    runSum 0 (blockTotal m c) 63
      = ∑ i : S8388608x8.Idx, absDiff (m ((c : Thread nD τ).loc main_arg0) i) (m ((c : Thread nD τ).loc main_arg1) i) := by
  rw [runSum_eq_sum, zero_add, Finset.sum_range, Finset.sum_congr rfl fun t _ => blockTotal_eq m c t,
    ← sum_rowBlocks sixtyFour (relaidDiff m c), relaidDiff_eq]
  exact Equiv.sum_comp (Shape.reshapeEquiv Facts₀.shapeCasts_S8388608x8_S524288x128) _

end Cert.KernelIdeal.AbsSum

end
-- ==== Proof.KernelRun.lean ====
/-
  From the total to the program's result. The one write-back, after the last point, covers the one-entry result
  array with the scaled total, and the host's closing reshape to a scalar keeps that entry.
-/
import proofs.«147512_j42545946034228_1_alg».proof.Proof.KernelTotal

noncomputable section

open Idealize.ShloMosaic Idealize.ShloMosaic.TcCoe Idealize.SL.Sem
open Idealize.ShloMosaic.Pipeline (Dat)
open Idealize.ShloMosaic.ValueIdx Idealize.ShloMosaic.TotalSum

namespace Cert.KernelIdeal.AbsSum

open Cert.KernelIdeal Cert.KernelIdeal.Gen Cert.KernelIdeal.Pieces Cert.L1RowMean

variable (m : (ℓ : Loc nD τ sig) → Buf (Elt Ideal) ℓ) (ρ : Dev nD → PrngReg)

/-! ## The result array and the program's result -/

/-- What the one-entry result array ends holding. -/
abbrev result (c : Dev nD) : Buf (Elt Ideal) ((c : Thread nD τ).loc main_v2) :=
  fun _ => value (m ((c : Thread nD τ).loc main_arg0)) (m ((c : Thread nD τ).loc main_arg1))

/-- The last point. -/
abbrev tLast : Fin cfg0.N := ⟨63, by have : cfg0.N = 64 := N_0; omega⟩

/-- After the last point the output block holds it. -/
theorem out_last (c : Dev nD) : (outsAt0 m c 63 (tLast).isLt).1 = result m c := by
  rw [out_eq m c 62 _ rfl]
  funext j
  show runSum 0 (blockTotal m c) 63 * _ = value _ _
  rw [total_eq]
  rfl

/-- The one write-back, after the last point, writes it. -/
theorem flushed_eq (c : Dev nD) (t : Fin cfg0.N) (hf : (cfg0.win 2).flush t = true) :
    (dats m 0 c).flushed 2 t = ((cfg0.win 2).blk t).view.read (Elt Ideal) (result m c) := by
  have hN : cfg0.N = 64 := N_0
  have h63 : t.val = 63 := by have := (flush0_2 t).mp hf; have := t.isLt; omega
  obtain rfl : t = tLast := Fin.ext h63
  show (cfg0.win 2).cut (grid0.coords tLast) ((dats m 0 c).after 2 tLast) = _
  rw [after0_2, out_last]
  have hz' : (fun a => win0_2.index tLast a * main_v2.ty.shape.size a) = fun _ => 0 :=
    funext fun a => by fin_cases a <;> decide +kernel
  exact (Memref.read_access_unit_zero (Elt Ideal) main_v2 hz' (fun a => by rw [congrFun hz' a]; simp) (result m c)).symm

/-- Its block is the whole one-entry array, so the array ends holding it. -/
theorem final (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v2).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The host's closing reshape to a scalar reads that entry. -/
theorem tail_eq (c : Dev nD) :
    Pipeline.afterTail₀ cfgs (dats m) 0 (V0 m) [hostOps1] c main_v3
      = fun _ => value (m ((c : Thread nD τ).loc main_arg0)) (m ((c : Thread nD τ).loc main_arg1)) := by
  unfold Pipeline.afterTail₀
  show StableHlo.after hostOps1 _ (Proc.devRef .tc main_v3) = _
  after_results
  have hA : Pipeline.withArrays (cfgs 0).spec c (V0 m c) (fun w => (dats m 0 c).arrAt w (cfgs 0).N) (Proc.devRef .tc main_v2)
      = result m c := (Pipeline.withArrays_arr spec0 launch0.win.arr_inj c _ _ 2).trans (final m c)
  rw [hA]
  unfold result
  generalize value (m ((c : Thread nD τ).loc main_arg0)) (m ((c : Thread nD τ).loc main_arg1)) = v
  rfl

/-! ## The run -/

/-- Every weakly fair execution of the idealized kernel's program ends with the result at the scaled total of
    absolute differences of the arguments as launched, and the arguments unchanged. -/
theorem run : θ_run defs (onTc (τ := τ) (main (F := Ideal))) ⟨m, fun _ => 0, ρ⟩ fun r => ∀ c : Dev nD,
      r.2.mem ((c.tc : Thread nD τ).loc main_v3)
        = (fun _ => value (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v3 (Pipeline.mem_restRefs_of main_v3 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.AbsSum

end
-- ==== Proof.RefSum.lean ====
/-
  The reference reads as the specification. Its host program subtracts, takes absolute values, sums every entry
  from `0`, and divides by `8388608.0`; on the extended reals the leading `0` drops and dividing by `2^23` is
  multiplying by `2^-23`.
-/
import proofs.«147512_j42545946034228_1_alg».proof.Defs
import proofs.«147512_j42545946034228_1_alg».proof.Proof.Gen.ReferenceIdeal.Run
import proofs.«147512_j42545946034228_1_alg».proof.Proof.Gen.ReferenceIdeal.Read
import proofs.«147512_j42545946034228_1_alg».proof.Proof.L1RowMean

noncomputable section

namespace Cert.ReferenceIdeal.RefSum

open Cert.ReferenceIdeal Cert.ReferenceIdeal.Read Idealize.ShloMosaic Idealize.ShloMosaic.TotalSum

/-- The reference's result, at its one index, is the scaled total of absolute differences. -/
theorem result_eq (a b : (⟨S8388608x8, .f32⟩ : BufTy).Contents (Elt Ideal)) (i : S_.Idx) :
    val_main_v3 (F := Ideal) a b i = Cert.L1RowMean.value a b := by
  rw [val_main_v3_apply, val_main_v2_apply, val_main_cst_apply, val_main_cst_0_apply]
  simp only [val_main_v1_apply, val_main_v0_apply, Ideal.hostDivf_def, Ideal.ofBits_def, Ideal.ofBits_zero_f32, zero_add,
    Ideal.hostAbsf_def, Ideal.absf_def, Ideal.subf_def]
  rw [div_4B000000]
  rfl

end Cert.ReferenceIdeal.RefSum

end
-- ==== Proof.lean ====
/-
  The certificate's claim: the kernel, its idealization and the reference each run to the end without fault and
  leave their arguments unchanged; the idealization rewrote nothing; and on the extended reals the idealized kernel
  and the idealized reference return the same number for the same arguments.

  The number is the mean-per-row L1 distance of two arrays `a`, `b` of 8388608 rows of 8 entries: the total of
  `|a i - b i|` over all 67108864 entries, divided by the number of rows. The reference sums every entry at once
  and divides by `8388608`. The kernel re-lays each array as 524288 rows of 128 lanes, walks them in 64 blocks of
  8192 rows, adds each block's total (lane sums per row, then the sum of the rows) to a one-entry accumulator that
  it resets at the first block, and at the last block writes the accumulator times `2^-23`. The two agree because
  a reshape permutes no entry, the 64 blocks tile the rows, sums over the extended reals may be regrouped freely
  (only commutativity and associativity of addition are used, so no finiteness of the inputs is needed), and
  `8388608 = 2^23`, so that dividing by it is multiplying by `2^-23`, which the kernel's f32 constant is exactly.
-/
import proofs.«147512_j42545946034228_1_alg».proof.Defs
import proofs.«147512_j42545946034228_1_alg».proof.Proof.Gen.Kernel
import proofs.«147512_j42545946034228_1_alg».proof.Proof.Gen.Kernel.Skeleton
import proofs.«147512_j42545946034228_1_alg».proof.Proof.Gen.Kernel.Launch
import proofs.«147512_j42545946034228_1_alg».proof.Proof.Gen.Kernel.Points
import proofs.«147512_j42545946034228_1_alg».proof.Proof.Gen.Kernel.Frame
import proofs.«147512_j42545946034228_1_alg».proof.Proof.Gen.KernelIdeal
import proofs.«147512_j42545946034228_1_alg».proof.Proof.Gen.KernelIdeal.Skeleton
import proofs.«147512_j42545946034228_1_alg».proof.Proof.Gen.KernelIdeal.Launch
import proofs.«147512_j42545946034228_1_alg».proof.Proof.Gen.KernelIdeal.Points
import proofs.«147512_j42545946034228_1_alg».proof.Proof.Gen.KernelIdeal.Frame
import proofs.«147512_j42545946034228_1_alg».proof.Proof.Gen.ReferenceIdeal
import proofs.«147512_j42545946034228_1_alg».proof.Proof.Gen.Pre_finite_inputs
import proofs.«147512_j42545946034228_1_alg».proof.Proof.KernelRun
import proofs.«147512_j42545946034228_1_alg».proof.Proof.RefSum
import Idealize.ShloMosaic.Adequacy
import Idealize.ShloMosaic.Init

noncomputable section

namespace Cert.Proof

open Idealize.ShloMosaic Idealize.SL.Sem

/-- The kernel as printed, and its idealization, run and keep their arguments: the generated frames. -/
theorem frame_kernel : Cert.frame_Kernel := fun m ρ _ => Cert.Kernel.Gen.frame m ρ
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the scaled total of absolute differences of arguments that agree. -/
theorem algebraic : Cert.algebraic_KernelIdeal_ReferenceIdeal := by
  intro m ρ m' ρ' _ hagree
  refine ⟨fun c => fun _ => Cert.L1RowMean.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.AbsSum.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, (hagree c).1, (hagree c).2.1]
  funext i
  exact Cert.ReferenceIdeal.RefSum.result_eq _ _ i

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
